-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S65536x2 : Shape := ⟨2, ![65536, 2]⟩
abbrev S65536 : Shape := ⟨1, ![65536]⟩
abbrev S2048x150 : Shape := ⟨2, ![2048, 150]⟩
abbrev S150 : Shape := ⟨1, ![150]⟩
abbrev S150x17 : Shape := ⟨2, ![150, 17]⟩
abbrev S17 : Shape := ⟨1, ![17]⟩
abbrev S_ : Shape := ⟨0, ![]⟩
abbrev S65536x1 : Shape := ⟨2, ![65536, 1]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S2048x150 : S_.BroadcastsInDim S2048x150 (![] : Fin 0 → Fin S2048x150.rank)
  reducesTo_S2048x150_S_d0_1 : S2048x150.ReducesTo [0, 1] S_
  bcast_S_S150 : S_.BroadcastsInDim S150 (![] : Fin 0 → Fin S150.rank)
  reducesTo_S150_S_d0 : S150.ReducesTo [0] S_
  bcast_S_S150x17 : S_.BroadcastsInDim S150x17 (![] : Fin 0 → Fin S150x17.rank)
  reducesTo_S150x17_S_d0_1 : S150x17.ReducesTo [0, 1] S_
  bcast_S_S17 : S_.BroadcastsInDim S17 (![] : Fin 0 → Fin S17.rank)
  reducesTo_S17_S_d0 : S17.ReducesTo [0] S_
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x2_0_1 : S65536x1.BroadcastsInDim S65536x2 (![0, 1] : Fin 2 → Fin S65536x2.rank)
  bcast_S_S65536x2 : S_.BroadcastsInDim S65536x2 (![] : Fin 0 → Fin S65536x2.rank)
  reducesTo_S65536x2_S_d0_1 : S65536x2.ReducesTo [0, 1] S_

variable [Facts]

def fn_part2 {F : FTy → Type} [FloatOps F] (main_arg1 : IVec S65536x2 32) (main_v23 : IVec S_ 1) (main_v30 : IVec S65536x2 1) (main_v34 : IVec S65536x2 32) : IVec S_ 1 :=
  let main_v35 : IVec S65536x2 32 := addi main_arg1 main_v34
  let main_c_11 : IVec S_ 32 := constantI S_ 32 16384#32
  let main_v36 : IVec S65536x2 32 := broadcastInDim S65536x2 ![] bcast_S_S65536x2 main_c_11
  let main_v37 : IVec S65536x2 1 := cmpi .slt main_v35 main_v36
  let main_v38 : IVec S65536x2 1 := andi main_v30 main_v37
  let main_c_12 : IVec S_ 1 := constantI S_ 1 1#1
  let main_v39 : IVec S_ 1 := (fun x v => Host.reduce IntOp.andi x v reducesTo_S65536x2_S_d0_1 h_S_) main_v38 main_c_12
  let main_v40 : IVec S_ 1 := andi main_v23 main_v39
  main_v40

def fn_part1 {F : FTy → Type} [FloatOps F] (main_arg1 : IVec S65536x2 32) (main_arg2 : IVec S65536 32) (main_arg6 : FVec F S17 .f32) (main_v13 : IVec S_ 1) (main_v16 : IVec S150x17 1) : IVec S_ 1 :=
  let main_c_5 : IVec S_ 1 := constantI S_ 1 1#1
  let main_v17 : IVec S_ 1 := (fun x v => Host.reduce IntOp.andi x v reducesTo_S150x17_S_d0_1 h_S_) main_v16 main_c_5
  let main_v18 : IVec S_ 1 := andi main_v13 main_v17
  let main_v19 : FVec F S17 .f32 := Host.absf main_arg6
  let main_cst_6 : FVec F S_ .f32 := constant S_ .f32 0x7F800000#32
  let main_v20 : FVec F S17 .f32 := broadcastInDim S17 ![] bcast_S_S17 main_cst_6
  let main_v21 : IVec S17 1 := cmpf .olt main_v19 main_v20
  let main_c_7 : IVec S_ 1 := constantI S_ 1 1#1
  let main_v22 : IVec S_ 1 := (fun x v => Host.reduce IntOp.andi x v reducesTo_S17_S_d0 h_S_) main_v21 main_c_7
  let main_v23 : IVec S_ 1 := andi main_v18 main_v22
  let main_v24 : IVec S65536x1 32 := broadcastInDim S65536x1 ![0] bcast_S65536_S65536x1_0 main_arg2
  let main_c_8 : IVec S_ 32 := constantI S_ 32 512#32
  let main_v25 : IVec S65536x1 32 := broadcastInDim S65536x1 ![] bcast_S_S65536x1 main_c_8
  let main_v26 : IVec S65536x1 32 := muli main_v24 main_v25
  let main_v27 : IVec S65536x2 32 := broadcastInDim S65536x2 ![0, 1] bcast_S65536x1_S65536x2_0_1 main_v26
  let main_v28 : IVec S65536x2 32 := addi main_arg1 main_v27
  let main_c_9 : IVec S_ 32 := constantI S_ 32 4294950912#32
  let main_v29 : IVec S65536x2 32 := broadcastInDim S65536x2 ![] bcast_S_S65536x2 main_c_9
  let main_v30 : IVec S65536x2 1 := cmpi .sge main_v28 main_v29
  let main_v31 : IVec S65536x1 32 := broadcastInDim S65536x1 ![0] bcast_S65536_S65536x1_0 main_arg2
  let main_c_10 : IVec S_ 32 := constantI S_ 32 512#32
  let main_v32 : IVec S65536x1 32 := broadcastInDim S65536x1 ![] bcast_S_S65536x1 main_c_10
  let main_v33 : IVec S65536x1 32 := muli main_v31 main_v32
  let main_v34 : IVec S65536x2 32 := broadcastInDim S65536x2 ![0, 1] bcast_S65536x1_S65536x2_0_1 main_v33
  fn_part2 (F := F) main_arg1 main_v23 main_v30 main_v34

def fn {F : FTy → Type} [FloatOps F] (main_arg0 : FVec F S32x512x1024 .f32) (main_arg1 : IVec S65536x2 32) (main_arg2 : IVec S65536 32) (main_arg3 : FVec F S2048x150 .f32) (main_arg4 : FVec F S150 .f32) (main_arg5 : FVec F S150x17 .f32) (main_arg6 : FVec F S17 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S2048x150 .f32 := Host.absf main_arg3
  let main_cst_0 : FVec F S_ .f32 := constant S_ .f32 0x7F800000#32
  let main_v5 : FVec F S2048x150 .f32 := broadcastInDim S2048x150 ![] bcast_S_S2048x150 main_cst_0
  let main_v6 : IVec S2048x150 1 := cmpf .olt main_v4 main_v5
  let main_c_1 : IVec S_ 1 := constantI S_ 1 1#1
  let main_v7 : IVec S_ 1 := (fun x v => Host.reduce IntOp.andi x v reducesTo_S2048x150_S_d0_1 h_S_) main_v6 main_c_1
  let main_v8 : IVec S_ 1 := andi main_v3 main_v7
  let main_v9 : FVec F S150 .f32 := Host.absf main_arg4
  let main_cst_2 : FVec F S_ .f32 := constant S_ .f32 0x7F800000#32
  let main_v10 : FVec F S150 .f32 := broadcastInDim S150 ![] bcast_S_S150 main_cst_2
  let main_v11 : IVec S150 1 := cmpf .olt main_v9 main_v10
  let main_c_3 : IVec S_ 1 := constantI S_ 1 1#1
  let main_v12 : IVec S_ 1 := (fun x v => Host.reduce IntOp.andi x v reducesTo_S150_S_d0 h_S_) main_v11 main_c_3
  let main_v13 : IVec S_ 1 := andi main_v8 main_v12
  let main_v14 : FVec F S150x17 .f32 := Host.absf main_arg5
  let main_cst_4 : FVec F S_ .f32 := constant S_ .f32 0x7F800000#32
  let main_v15 : FVec F S150x17 .f32 := broadcastInDim S150x17 ![] bcast_S_S150x17 main_cst_4
  let main_v16 : IVec S150x17 1 := cmpf .olt main_v14 main_v15
  fn_part1 (F := F) main_arg1 main_arg2 main_arg6 main_v13 main_v16
-- ==== Kernel.lean ====
abbrev S32x512x1024 : Shape := ⟨3, ![32, 512, 1024]⟩
abbrev S65536x2 : Shape := ⟨2, ![65536, 2]⟩
abbrev S65536 : Shape := ⟨1, ![65536]⟩
abbrev S2048x150 : Shape := ⟨2, ![2048, 150]⟩
abbrev S150 : Shape := ⟨1, ![150]⟩
abbrev S150x17 : Shape := ⟨2, ![150, 17]⟩
abbrev S17 : Shape := ⟨1, ![17]⟩
abbrev S16384x1024 : Shape := ⟨2, ![16384, 1024]⟩
abbrev S65536x1 : Shape := ⟨2, ![65536, 1]⟩
abbrev S_ : Shape := ⟨0, ![]⟩
abbrev S1 : Shape := ⟨1, ![1]⟩
abbrev S1x1 : Shape := ⟨2, ![1, 1]⟩
abbrev S65536x1024 : Shape := ⟨2, ![65536, 1024]⟩
abbrev S65536x2048 : Shape := ⟨2, ![65536, 2048]⟩
abbrev S1x150 : Shape := ⟨2, ![1, 150]⟩
abbrev S1x17 : Shape := ⟨2, ![1, 17]⟩
abbrev S65536x17 : Shape := ⟨2, ![65536, 17]⟩
abbrev S2048x2048 : Shape := ⟨2, ![2048, 2048]⟩
abbrev S2048x17 : Shape := ⟨2, ![2048, 17]⟩

abbrev nBuf : Space → Nat
  | .hbm => 73
  | .vmem => 8
  | .smem => 0
  | _ => 0

abbrev bufTy : (tb : Table) → Fin (tcTables nBuf tb) → BufTy
  | .hbm, ⟨0, _⟩ => ⟨S32x512x1024, .f32⟩
  | .hbm, ⟨1, _⟩ => ⟨S65536x2, .i32⟩
  | .hbm, ⟨2, _⟩ => ⟨S65536, .i32⟩
  | .hbm, ⟨3, _⟩ => ⟨S2048x150, .f32⟩
  | .hbm, ⟨4, _⟩ => ⟨S150, .f32⟩
  | .hbm, ⟨5, _⟩ => ⟨S150x17, .f32⟩
  | .hbm, ⟨6, _⟩ => ⟨S17, .f32⟩
  | .hbm, ⟨7, _⟩ => ⟨S16384x1024, .f32⟩
  | .hbm, ⟨8, _⟩ => ⟨S65536x1, .i32⟩
  | .hbm, ⟨9, _⟩ => ⟨S65536, .i32⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S65536x1, .i32⟩
  | .hbm, ⟨15, _⟩ => ⟨S65536, .i32⟩
  | .hbm, ⟨16, _⟩ => ⟨S_, .i32⟩
  | .hbm, ⟨17, _⟩ => ⟨S65536, .i32⟩
  | .hbm, ⟨18, _⟩ => ⟨S65536, .i32⟩
  | .hbm, ⟨19, _⟩ => ⟨S65536, .i32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S1, .i32⟩
  | .hbm, ⟨29, _⟩ => ⟨S_, .i32⟩
  | .hbm, ⟨30, _⟩ => ⟨S65536x1, .i32⟩
  | .hbm, ⟨31, _⟩ => ⟨S65536x1, .i1⟩
  | .hbm, ⟨32, _⟩ => ⟨S1x1, .i32⟩
  | .hbm, ⟨33, _⟩ => ⟨S65536x1, .i32⟩
  | .hbm, ⟨34, _⟩ => ⟨S65536x1, .i1⟩
  | .hbm, ⟨35, _⟩ => ⟨S65536x1, .i1⟩
  | .hbm, ⟨36, _⟩ => ⟨S_, .i1⟩
  | .hbm, ⟨37, _⟩ => ⟨S65536, .i1⟩
  | .hbm, ⟨38, _⟩ => ⟨S65536x1024, .f32⟩
  | .hbm, ⟨39, _⟩ => ⟨S65536x1024, .i1⟩
  | .hbm, ⟨40, _⟩ => ⟨S_, .f32⟩
  | .hbm, ⟨41, _⟩ => ⟨S65536x1024, .f32⟩
  | .hbm, ⟨42, _⟩ => ⟨S65536x1024, .f32⟩
  | .hbm, ⟨43, _⟩ => ⟨S_, .i32⟩
  | .hbm, ⟨44, _⟩ => ⟨S65536, .i32⟩
  | .hbm, ⟨45, _⟩ => ⟨S65536, .i1⟩
  | .hbm, ⟨46, _⟩ => ⟨S_, .i32⟩
  | .hbm, ⟨47, _⟩ => ⟨S65536, .i32⟩
  | .hbm, ⟨48, _⟩ => ⟨S65536, .i32⟩
  | .hbm, ⟨49, _⟩ => ⟨S65536, .i32⟩
  | .hbm, ⟨50, _⟩ => ⟨S65536x1, .i32⟩
  | .hbm, ⟨51, _⟩ => ⟨S1, .i32⟩
  | .hbm, ⟨52, _⟩ => ⟨S_, .i32⟩
  | .hbm, ⟨53, _⟩ => ⟨S65536x1, .i32⟩
  | .hbm, ⟨54, _⟩ => ⟨S65536x1, .i1⟩
  | .hbm, ⟨55, _⟩ => ⟨S1x1, .i32⟩
  | .hbm, ⟨56, _⟩ => ⟨S65536x1, .i32⟩
  | .hbm, ⟨57, _⟩ => ⟨S65536x1, .i1⟩
  | .hbm, ⟨58, _⟩ => ⟨S65536x1, .i1⟩
  | .hbm, ⟨59, _⟩ => ⟨S_, .i1⟩
  | .hbm, ⟨60, _⟩ => ⟨S65536, .i1⟩
  | .hbm, ⟨61, _⟩ => ⟨S65536x1024, .f32⟩
  | .hbm, ⟨62, _⟩ => ⟨S65536x1024, .i1⟩
  | .hbm, ⟨63, _⟩ => ⟨S_, .f32⟩
  | .hbm, ⟨64, _⟩ => ⟨S65536x1024, .f32⟩
  | .hbm, ⟨65, _⟩ => ⟨S65536x1024, .f32⟩
  | .hbm, ⟨66, _⟩ => ⟨S65536x2048, .f32⟩
  | .hbm, ⟨67, _⟩ => ⟨S65536x2048, .bf16⟩
  | .hbm, ⟨68, _⟩ => ⟨S2048x150, .bf16⟩
  | .hbm, ⟨69, _⟩ => ⟨S150x17, .bf16⟩
  | .hbm, ⟨70, _⟩ => ⟨S1x150, .f32⟩
  | .hbm, ⟨71, _⟩ => ⟨S1x17, .f32⟩
  | .hbm, ⟨72, _⟩ => ⟨S65536x17, .f32⟩
  | .local _ .vmem, ⟨0, _⟩ => ⟨S2048x2048, .bf16⟩
  | .local _ .vmem, ⟨1, _⟩ => ⟨S2048x2048, .bf16⟩
  | .local _ .vmem, ⟨2, _⟩ => ⟨S2048x150, .bf16⟩
  | .local _ .vmem, ⟨3, _⟩ => ⟨S1x150, .f32⟩
  | .local _ .vmem, ⟨4, _⟩ => ⟨S150x17, .bf16⟩
  | .local _ .vmem, ⟨5, _⟩ => ⟨S1x17, .f32⟩
  | .local _ .vmem, ⟨6, _⟩ => ⟨S2048x17, .f32⟩
  | .local _ .vmem, ⟨7, _⟩ => ⟨S2048x17, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v11 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x150 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x150 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S150x17 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x17 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x17 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x1024_S16384x1024 : S32x512x1024.ShapeCasts S16384x1024
  slices_S65536x2_S65536x1_0_0 : S65536x2.Slices ![0, 0] S65536x1
  shapeCasts_S65536x1_S65536 : S65536x1.ShapeCasts S65536
  bcast_S_S65536 : S_.BroadcastsInDim S65536 (![] : Fin 0 → Fin S65536.rank)
  slices_S65536x2_S65536x1_0_1 : S65536x2.Slices ![0, 1] S65536x1
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  bcast_S65536_S65536x1024_0 : S65536.BroadcastsInDim S65536x1024 (![0] : Fin 1 → Fin S65536x1024.rank)
  bcast_S_S65536x1024 : S_.BroadcastsInDim S65536x1024 (![] : Fin 0 → Fin S65536x1024.rank)
  concatenates_S65536x1024_S65536x1024_S65536x2048_d1 : Shape.Concatenates [S65536x1024, S65536x1024] S65536x2048 1
  bitsLt_bf16_f32 : FTy.bits .bf16 < FTy.bits .f32
  shapeCasts_S150_S1x150 : S150.ShapeCasts S1x150
  shapeCasts_S17_S1x17 : S17.ShapeCasts S1x17
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x150_S2048x150_0_0 : ∀ a, (![0, 0] : Fin 2 → Nat) a + S2048x150.size a ≤ S2048x150.size a
  h_S2048x150 : 0 < S2048x150.numel
  shapeCasts_S2048x150_S2048x150 : S2048x150.ShapeCasts S2048x150
  inb_S1x150_S1x150_0_0 : ∀ a, (![0, 0] : Fin 2 → Nat) a + S1x150.size a ≤ S1x150.size a
  h_S1x150 : 0 < S1x150.numel
  shapeCasts_S1x150_S1x150 : S1x150.ShapeCasts S1x150
  broadcasts_S1x150_S2048x150 : S1x150.Broadcasts S2048x150
  inb_S150x17_S150x17_0_0 : ∀ a, (![0, 0] : Fin 2 → Nat) a + S150x17.size a ≤ S150x17.size a
  h_S150x17 : 0 < S150x17.numel
  shapeCasts_S150x17_S150x17 : S150x17.ShapeCasts S150x17
  inb_S1x17_S1x17_0_0 : ∀ a, (![0, 0] : Fin 2 → Nat) a + S1x17.size a ≤ S1x17.size a
  h_S1x17 : 0 < S1x17.numel
  shapeCasts_S1x17_S1x17 : S1x17.ShapeCasts S1x17
  broadcasts_S1x17_S2048x17 : S1x17.Broadcasts S2048x17
  inb_S2048x17_S2048x17_0_0 : ∀ a, (![0, 0] : Fin 2 → Nat) a + S2048x17.size a ≤ S2048x17.size a
  h_S2048x17 : 0 < S2048x17.numel
  gather_S16384x1024_S65536x1_S65536x1024_1_0_n_n_0_1_11024_wf : GatherDims.WF S16384x1024 S65536x1 S65536x1024 [1] [0] [] [0] [] 1 ![1, 1024]
  dot_S2048x2048_S2048x150_S2048x150_1_0_0_1_n_n_wf : DotDims.WF S2048x2048 S2048x150 S2048x150 [1] [0] [0] [1] [] []
  dot_S2048x150_S150x17_S2048x17_1_0_0_1_n_n_wf : DotDims.WF S2048x150 S150x17 S2048x17 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S65536x2048.size a
  hwx0_0 : ∀ i : grid0.Coords, EltTy.bits .bf16 = 32 ∨ (Rect.block (s := S65536x2048) S2048x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x150.size a ≤ S2048x150.size a
  hwx0_1 : ∀ i : grid0.Coords, EltTy.bits .bf16 = 32 ∨ (Rect.block (s := S2048x150) S2048x150.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x150.size a ≤ S1x150.size a
  hwx0_2 : ∀ i : grid0.Coords, EltTy.bits .f32 = 32 ∨ (Rect.block (s := S1x150) S1x150.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S150x17.size a ≤ S150x17.size a
  hwx0_3 : ∀ i : grid0.Coords, EltTy.bits .bf16 = 32 ∨ (Rect.block (s := S150x17) S150x17.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x17.size a ≤ S1x17.size a
  hwx0_4 : ∀ i : grid0.Coords, EltTy.bits .f32 = 32 ∨ (Rect.block (s := S1x17) S1x17.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x17.size a ≤ S65536x17.size a
  hwx0_5 : ∀ i : grid0.Coords, EltTy.bits .f32 = 32 ∨ (Rect.block (s := S65536x17) S2048x17.size (cc0_transform_5 i) (hinb0_5 i)).WholeWords (EltTy.packing .f32)

variable [Facts₀]

def gather_S16384x1024_S65536x1_S65536x1024_1_0_n_n_0_1_11024 : GatherDims S16384x1024 S65536x1 S65536x1024 where
  offsetDims := [1]
  collapsedSliceDims := [0]
  operandBatchingDims := []
  startIndicesBatchingDims := []
  startIndexMap := [0]
  indexVectorDim := 1
  sliceSizes := ![1, 1024]
  wf := gather_S16384x1024_S65536x1_S65536x1024_1_0_n_n_0_1_11024_wf
def dot_S2048x2048_S2048x150_S2048x150_1_0_0_1_n_n : DotDims S2048x2048 S2048x150 S2048x150 where
  lhsContracting := [1]
  rhsContracting := [0]
  lhsNonContracting := [0]
  rhsNonContracting := [1]
  lhsBatch := []
  rhsBatch := []
  wf := dot_S2048x2048_S2048x150_S2048x150_1_0_0_1_n_n_wf
def dot_S2048x150_S150x17_S2048x17_1_0_0_1_n_n : DotDims S2048x150 S150x17 S2048x17 where
  lhsContracting := [1]
  rhsContracting := [0]
  lhsNonContracting := [0]
  rhsNonContracting := [1]
  lhsBatch := []
  rhsBatch := []
  wf := dot_S2048x150_S150x17_S2048x17_1_0_0_1_n_n_wf

abbrev win0_0 : Pipeline.Window sig grid0 :=
  Pipeline.Window.ofSpec (Memref.whole main_v14) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x150.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x150.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S150x17.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x17.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2048x17.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S65536x2 : Shape := ⟨2, ![65536, 2]⟩
abbrev S65536 : Shape := ⟨1, ![65536]⟩
abbrev S2048x150 : Shape := ⟨2, ![2048, 150]⟩
abbrev S150 : Shape := ⟨1, ![150]⟩
abbrev S150x17 : Shape := ⟨2, ![150, 17]⟩
abbrev S17 : Shape := ⟨1, ![17]⟩
abbrev S16384x1024 : Shape := ⟨2, ![16384, 1024]⟩
abbrev S65536x1 : Shape := ⟨2, ![65536, 1]⟩
abbrev S_ : Shape := ⟨0, ![]⟩
abbrev S131072 : Shape := ⟨1, ![131072]⟩
abbrev S131072x1 : Shape := ⟨2, ![131072, 1]⟩
abbrev S131072x1024 : Shape := ⟨2, ![131072, 1024]⟩
abbrev S65536x2048 : Shape := ⟨2, ![65536, 2048]⟩
abbrev S65536x150 : Shape := ⟨2, ![65536, 150]⟩
abbrev S1x150 : Shape := ⟨2, ![1, 150]⟩
abbrev S65536x17 : Shape := ⟨2, ![65536, 17]⟩
abbrev S1x17 : Shape := ⟨2, ![1, 17]⟩

abbrev nBuf : Space → Nat
  | .hbm => 36
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S65536x2, .i32⟩
  | .hbm, ⟨2, _⟩ => ⟨S65536, .i32⟩
  | .hbm, ⟨3, _⟩ => ⟨S2048x150, .f32⟩
  | .hbm, ⟨4, _⟩ => ⟨S150, .f32⟩
  | .hbm, ⟨5, _⟩ => ⟨S150x17, .f32⟩
  | .hbm, ⟨6, _⟩ => ⟨S17, .f32⟩
  | .hbm, ⟨7, _⟩ => ⟨S16384x1024, .f32⟩
  | .hbm, ⟨8, _⟩ => ⟨S65536x1, .i32⟩
  | .hbm, ⟨9, _⟩ => ⟨S_, .i32⟩
  | .hbm, ⟨10, _⟩ => ⟨S65536x1, .i32⟩
  | .hbm, ⟨11, _⟩ => ⟨S65536x1, .i32⟩
  | .hbm, ⟨12, _⟩ => ⟨S65536x2, .i32⟩
  | .hbm, ⟨13, _⟩ => ⟨S65536x2, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x1024, .f32⟩
  | .hbm, ⟨24, _⟩ => ⟨S65536x2048, .f32⟩
  | .hbm, ⟨25, _⟩ => ⟨S65536x150, .f32⟩
  | .hbm, ⟨26, _⟩ => ⟨S1x150, .f32⟩
  | .hbm, ⟨27, _⟩ => ⟨S65536x150, .f32⟩
  | .hbm, ⟨28, _⟩ => ⟨S65536x150, .f32⟩
  | .hbm, ⟨29, _⟩ => ⟨S_, .f32⟩
  | .hbm, ⟨30, _⟩ => ⟨S65536x150, .f32⟩
  | .hbm, ⟨31, _⟩ => ⟨S65536x150, .f32⟩
  | .hbm, ⟨32, _⟩ => ⟨S65536x17, .f32⟩
  | .hbm, ⟨33, _⟩ => ⟨S1x17, .f32⟩
  | .hbm, ⟨34, _⟩ => ⟨S65536x17, .f32⟩
  | .hbm, ⟨35, _⟩ => ⟨S65536x17, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  shapeCasts_S32x512x1024_S16384x1024 : S32x512x1024.ShapeCasts S16384x1024
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x2_0_1 : S65536x1.BroadcastsInDim S65536x2 (![0, 1] : Fin 2 → Fin S65536x2.rank)
  shapeCasts_S65536x2_S131072 : S65536x2.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  shapeCasts_S131072x1024_S65536x2048 : S131072x1024.ShapeCasts S65536x2048
  bcast_S150_S1x150_1 : S150.BroadcastsInDim S1x150 (![1] : Fin 1 → Fin S1x150.rank)
  bcast_S1x150_S65536x150_0_1 : S1x150.BroadcastsInDim S65536x150 (![0, 1] : Fin 2 → Fin S65536x150.rank)
  bcast_S_S65536x150 : S_.BroadcastsInDim S65536x150 (![] : Fin 0 → Fin S65536x150.rank)
  bcast_S17_S1x17_1 : S17.BroadcastsInDim S1x17 (![1] : Fin 1 → Fin S1x17.rank)
  bcast_S1x17_S65536x17_0_1 : S1x17.BroadcastsInDim S65536x17 (![0, 1] : Fin 2 → Fin S65536x17.rank)
  gather_S16384x1024_S131072x1_S131072x1024_1_0_n_n_0_1_11024_wf : GatherDims.WF S16384x1024 S131072x1 S131072x1024 [1] [0] [] [0] [] 1 ![1, 1024]
  dot_S65536x2048_S2048x150_S65536x150_1_0_0_1_n_n_wf : DotDims.WF S65536x2048 S2048x150 S65536x150 [1] [0] [0] [1] [] []
  dot_S65536x150_S150x17_S65536x17_1_0_0_1_n_n_wf : DotDims.WF S65536x150 S150x17 S65536x17 [1] [0] [0] [1] [] []

variable [Facts₀]

def gather_S16384x1024_S131072x1_S131072x1024_1_0_n_n_0_1_11024 : GatherDims S16384x1024 S131072x1 S131072x1024 where
  offsetDims := [1]
  collapsedSliceDims := [0]
  operandBatchingDims := []
  startIndicesBatchingDims := []
  startIndexMap := [0]
  indexVectorDim := 1
  sliceSizes := ![1, 1024]
  wf := gather_S16384x1024_S131072x1_S131072x1024_1_0_n_n_0_1_11024_wf
def dot_S65536x2048_S2048x150_S65536x150_1_0_0_1_n_n : DotDims S65536x2048 S2048x150 S65536x150 where
  lhsContracting := [1]
  rhsContracting := [0]
  lhsNonContracting := [0]
  rhsNonContracting := [1]
  lhsBatch := []
  rhsBatch := []
  wf := dot_S65536x2048_S2048x150_S65536x150_1_0_0_1_n_n_wf
def dot_S65536x150_S150x17_S65536x17_1_0_0_1_n_n : DotDims S65536x150 S150x17 S65536x17 where
  lhsContracting := [1]
  rhsContracting := [0]
  lhsNonContracting := [0]
  rhsNonContracting := [1]
  lhsBatch := []
  rhsBatch := []
  wf := dot_S65536x150_S150x17_S65536x17_1_0_0_1_n_n_wf

class Facts : Prop extends Facts₀ where

variable [Facts]
-- ==== Proof.LibGather.lean ====
/-
  General lemma: the row gather (`table[idx]` over the rows of a rank-2 table, the row numbers an [M, 1] column), read
  at an index. Result row `e` is the table's row `min (max idx 0) (N - 1)`: the `e`-th start index read as a signed
  integer and clamped into the table.
-/
import Idealize.ShloMosaic.PureOps.Ideal
import Idealize.ShloMosaic.Lib.ValueIdx
import Idealize.ShloMosaic.Lib.StableHlo.Predicate

noncomputable section

namespace Cert.LibGather

open Idealize.ShloMosaic Idealize.ShloMosaic.ValueIdx Idealize.ShloMosaic.StableHlo.Predicate

/-- The dimension numbers of a row gather: table [N, C], row numbers as an [M, 1] column, result [M, C]. -/
def rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- A row gather at result row `e`, column `l`: the table's row at the `e`-th start index, read signed and clamped
    into `[0, N - 1]`, at column `l`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (l : Fin C) :
    Host.gather (rowGatherDims N M C wf) x idx (ix2 e l)
      = x (ix2 ⟨min (idx (ixP e)).toInt.toNat (N - 1), by omega⟩ l) := by
  unfold Host.gather
  congr 1
  funext a
  refine Fin.ext ?_
  have h10 : ¬ ((1 : Fin 2) = 0) := by decide
  match a with
  | ⟨0, _⟩ =>
    -- axis 0 (the rows): collapsed and named by the start index map, so the coordinate is the clamped start alone
    show (rowGatherDims N M C wf).start (ix2 e l) idx 0 + (rowGatherDims N M C wf).batchCoord (ix2 e l) 0
        + (rowGatherDims N M C wf).offCoord (ix2 e l) 0 = min (idx (ixP e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    -- the start index is read at row e of the column: the result's batch axis 0 feeds the column's axis 0
    have hsi : (rowGatherDims N M C wf).siIdx (ix2 e l) ⟨List.idxOf (0 : Fin 2) (rowGatherDims N M C wf).startIndexMap,
        List.idxOf_lt_length_iff.2 (List.mem_singleton.mpr rfl)⟩ = ixP e := by
      funext b; refine Fin.ext ?_
      match b with
      | ⟨0, _⟩ => rfl
      | ⟨1, _⟩ => rfl
    rw [hsi]
    rfl
  | ⟨1, _⟩ =>
    -- axis 1 (the columns): the one kept axis; not start-indexed, so start 0, and the offset coordinate is l
    show (rowGatherDims N M C wf).start (ix2 e l) idx 1 + (rowGatherDims N M C wf).batchCoord (ix2 e l) 1
        + (rowGatherDims N M C wf).offCoord (ix2 e l) 1 = l.val
    have h1s : (1 : Fin 2) ∉ (rowGatherDims N M C wf).startIndexMap := fun h => h10 (List.mem_singleton.mp h)
    have h1c : (1 : Fin 2) ∉ (rowGatherDims N M C wf).collapsedSliceDims := fun h => h10 (List.mem_singleton.mp h)
    have hs : (rowGatherDims N M C wf).start (ix2 e l) idx 1 = 0 := by
      unfold GatherDims.start
      rw [dif_neg h1s]
    rw [hs, GatherDims.batchCoord_eq_zero _ _ _ List.not_mem_nil]
    simp only [Nat.add_zero, Nat.zero_add]
    unfold GatherDims.offCoord
    rw [dif_pos ((GatherDims.mem_sKept _ _).mpr ⟨h1c, List.not_mem_nil⟩)]
    rfl

end Cert.LibGather

end
-- ==== Proof.SpanIndex.lean ====
/-
  Row numbers of the flattened token table, as 32-bit words.

  A span end's row in the 16384-row table is `position + 512 * batch`, computed in wrapping 32-bit arithmetic, and a
  negative row number counts from the end: `norm v` is `v + 16384` when `v` is negative and `v` otherwise. When
  `-16384 ≤ v < 16384` as signed numbers, the normalised number lies in `[0, 16383]`: a negative `v` moves up by
  16384 without wrapping, a non-negative one is unchanged.
-/
import Idealize.ShloMosaic.Lib.StableHlo.Predicate
import Idealize.ShloMosaic.Lib.ReduceAll
import Idealize.ShloMosaic.Lib.ValueIdx

namespace Cert.SpanIndex

open Idealize.ShloMosaic Idealize.ShloMosaic.ValueIdx Idealize.ShloMosaic.StableHlo.Predicate

/-- The flat row number of one end of a span. -/
def flat (pos batch : BitVec 32) : BitVec 32 := IntOp.addi pos (IntOp.muli batch 512#32)

/-- A negative row number counts from the end of the 16384 rows. -/
def norm (v : BitVec 32) : BitVec 32 := Scalar.select (IntOp.cmpi .slt v 0#32) (IntOp.addi v 16384#32) v

/-- The row number is a valid one, counting from either end. -/
def InRange (v : BitVec 32) : Prop := IntOp.cmpi .sge v 4294950912#32 = 1#1 ∧ IntOp.cmpi .slt v 16384#32 = 1#1

theorem toInt_bounds {v : BitVec 32} (h : InRange v) : -16384 ≤ v.toInt ∧ v.toInt < 16384 := by
  obtain ⟨h1, h2⟩ := h
  simp only [IntOp.cmpi, ofBool_eq_one_iff, BitVec.sle, BitVec.slt, decide_eq_true_eq] at h1 h2
  have e1 : (4294950912#32 : BitVec 32).toInt = -16384 := by decide
  have e2 : (16384#32 : BitVec 32).toInt = 16384 := by decide
  rw [e1] at h1; rw [e2] at h2
  exact ⟨h1, h2⟩

/-- The normalised row number as a signed number. -/
theorem toInt_norm {v : BitVec 32} (h : InRange v) :
    (norm v).toInt = if v.toInt < 0 then v.toInt + 16384 else v.toInt := by
  obtain ⟨lo, hi⟩ := toInt_bounds h
  have e0 : (0#32 : BitVec 32).toInt = 0 := by decide
  have e3 : (16384#32 : BitVec 32).toInt = 16384 := by decide
  unfold norm Scalar.select
  by_cases hn : v.toInt < 0
  · have hc : IntOp.cmpi .slt v 0#32 = 1 := by
      simp only [IntOp.cmpi, BitVec.slt, e0]
      rw [decide_eq_true hn]; rfl
    rw [if_pos hc, if_pos hn]
    simp only [IntOp.addi, BitVec.toInt_add, e3, Int.bmod_def]
    norm_num
    split <;> omega
  · have hc : ¬ IntOp.cmpi .slt v 0#32 = 1 := by
      simp only [IntOp.cmpi, BitVec.slt, e0]
      rw [decide_eq_false hn]; decide
    rw [if_neg hc, if_neg hn]

/-- A valid row number, normalised, passes the two tests `0 ≤ ·` and `· ≤ 16383`. -/
theorem norm_tests {v : BitVec 32} (h : InRange v) :
    IntOp.andi (IntOp.cmpi .sge (norm v) 0#32) (IntOp.cmpi .sle (norm v) 16383#32) = 1#1 := by
  obtain ⟨lo, hi⟩ := toInt_bounds h
  have hv := toInt_norm h
  have e0 : (0#32 : BitVec 32).toInt = 0 := by decide
  have e3 : (16383#32 : BitVec 32).toInt = 16383 := by decide
  rw [IntOp.andi_eq_one]
  constructor
  · simp only [IntOp.cmpi, ofBool_eq_one_iff, BitVec.sle, decide_eq_true_eq, e0, hv]
    split <;> omega
  · simp only [IntOp.cmpi, ofBool_eq_one_iff, BitVec.sle, decide_eq_true_eq, e3, hv]
    split <;> omega

end Cert.SpanIndex
-- ==== Proof.Feats.lean ====
/-
  The table of span features as a function of the inputs.

  The token table `xs` (32 batches of 512 positions, 1024 features each) is read as 16384 rows: row `r` is batch
  `r / 512`, position `r % 512`. Span `n` has two ends, `j = 0` (begin) and `j = 1` (end); end `j` reads the row whose
  number is `flat (spans n j) (batch n)`, normalised (a negative number counts from the end) and then clamped into
  the table as every gather clamps its start index. The span's 2048 features are the begin row followed by the end
  row: feature `k` is column `k % 1024` of end `k / 1024`.
-/
import proofs.«418251_j19301583028867_1_alg».proof.Proof.LibGather
import proofs.«418251_j19301583028867_1_alg».proof.Proof.SpanIndex
import Idealize.ShloMosaic.Lib.Pipeline.Value

noncomputable section

namespace Cert.Feats

open Idealize.ShloMosaic Idealize.ShloMosaic.ValueIdx Idealize.ShloMosaic.StableHlo.Predicate Cert.SpanIndex

/-- The table row a row number reads: the signed number clamped into `[0, 16383]`. -/
def rowOf (v : BitVec 32) : Fin 16384 := ⟨min v.toInt.toNat 16383, by omega⟩

/-- Entry `(r, c)` of the token table read as 16384 rows. -/
def token (xs : (⟨3, ![32, 512, 1024]⟩ : Shape).Idx → EReal) (r : Fin 16384) (c : Fin 1024) : EReal :=
  xs (ix3 ⟨r.val / 512, by have := r.isLt; omega⟩ ⟨r.val % 512, by omega⟩ c)

/-- Which end of the span feature `k` belongs to, and which column of that end's row it is. -/
abbrev endOf (k : Fin 2048) : Fin 2 := ⟨k.val / 1024, by have := k.isLt; omega⟩
abbrev colOf (k : Fin 2048) : Fin 1024 := ⟨k.val % 1024, by omega⟩

/-- Feature `k` of span `n`. -/
def feats (xs : (⟨3, ![32, 512, 1024]⟩ : Shape).Idx → EReal) (spans : (⟨2, ![65536, 2]⟩ : Shape).Idx → BitVec 32)
    (batch : (⟨1, ![65536]⟩ : Shape).Idx → BitVec 32) (n : Fin 65536) (k : Fin 2048) : EReal :=
  token xs (rowOf (norm (flat (spans (ix2 n (endOf k))) (batch (ix1 n))))) (colOf k)

/-- The flattening reshape of the token table, read at a row and a column. -/
theorem reshape_token (xs : (⟨3, ![32, 512, 1024]⟩ : Shape).Idx → EReal)
    (h : (⟨3, ![32, 512, 1024]⟩ : Shape).ShapeCasts ⟨2, ![16384, 1024]⟩) (r : Fin 16384) (c : Fin 1024) :
    shapeCast ⟨2, ![16384, 1024]⟩ xs h (ix2 r c) = token xs r c := by
  unfold token
  refine shapeCast_apply xs h (ix2 r c) _ ?_
  rw [Shape.rowMajor_val_three, Shape.rowMajor_val_two]
  have := r.isLt
  show (r.val / 512 * 512 + r.val % 512) * 1024 + c.val = r.val * 1024 + c.val
  omega

/-- A row gather from the 16384-row table: result row `e` is the table's row at the `e`-th row number, clamped. -/
theorem gather_row {α : Type} {M : Nat}
    (d : GatherDims ⟨2, ![16384, 1024]⟩ ⟨2, ![M, 1]⟩ ⟨2, ![M, 1024]⟩)
    (wf : GatherDims.WF ⟨2, ![16384, 1024]⟩ ⟨2, ![M, 1]⟩ ⟨2, ![M, 1024]⟩ [1] [0] [] [0] [] 1 ![1, 1024])
    (hd : d = Cert.LibGather.rowGatherDims 16384 M 1024 wf)
    (tbl : (⟨2, ![16384, 1024]⟩ : Shape).Idx → α) (idx : IVec ⟨2, ![M, 1]⟩ 32) (e : Fin M) (l : Fin 1024) :
    Host.gather d tbl idx (ix2 e l) = tbl (ix2 (rowOf (idx (ixP e))) l) := by
  subst hd
  exact Cert.LibGather.gather_rows_apply (by decide) wf tbl idx e l

end Cert.Feats

end
-- ==== Proof.KernelHost.lean ====
/-
  The arrays the kernel's region finds, as functions of the inputs.

  Before its one region the kernel flattens the token table, forms each span end's flat row number
  `spans n j + 512 * batch n`, and takes the rows: a row number is normalised (a negative one counts from the end),
  tested for `0 ≤ · ≤ 16383`, gathered with the gather's own clamp, and a row whose test fails is replaced by a fill
  word. The begin rows and the end rows are laid side by side and narrowed to bf16 (the identity on the extended
  reals). When every flat row number is a valid one (`SpanIndex.InRange`), every test passes, no row is replaced, and
  the table is `Feats.feats`. The weight matrices are the inputs narrowed to bf16, and each bias is the input as a
  one-row array.
-/
import proofs.«418251_j19301583028867_1_alg».proof.Proof.Gen.KernelIdeal.Frame
import proofs.«418251_j19301583028867_1_alg».proof.Proof.Feats
import Idealize.ShloMosaic.Lib.StableHlo.Run
import Idealize.ShloMosaic.Lib.ValueLayout
import Idealize.ShloMosaic.Lib.ReduceAll
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx Idealize.ShloMosaic.StableHlo.Predicate
open Cert.SpanIndex Cert.Feats

/-! ## Taking rows by number -/

/-- The normalised row numbers, as a column. -/
def takeCol (idx : IVec S65536 32) : IVec S65536x1 32 :=
  broadcastInDim S65536x1 ![0] bcast_S65536_S65536x1_0
    (select (cmpi .slt idx (broadcastInDim S65536 ![] bcast_S_S65536 (constantI S_ 32 0#32)))
      (addi idx (broadcastInDim S65536 ![] bcast_S_S65536 (constantI S_ 32 16384#32))) idx)

/-- Which rows pass the test `0 ≤ · ≤ 16383`. -/
def takeMask (idx : IVec S65536 32) : IVec S65536 1 :=
  Host.reduce IntOp.andi
    (andi (cmpi .sge (takeCol idx) (broadcastInDim S65536x1 ![] bcast_S_S65536x1 (constantI S_ 32 0#32)))
      (cmpi .sle (takeCol idx)
        (broadcastInDim S65536x1 ![0, 1] bcast_S1x1_S65536x1_0_1 (broadcastInDim S1x1 ![1] bcast_S1_S1x1_1 (constantI S1 32 16383#32)))))
    (constantI S_ 1 1#1) reducesTo_S65536x1_S65536_d1 h_S_

/-- The rows taken: the gathered row where the test passes, the fill word elsewhere. -/
def takeRows (tbl : FVec Ideal S16384x1024 .f32) (idx : IVec S65536 32) : FVec Ideal S65536x1024 .f32 :=
  select (broadcastInDim S65536x1024 ![0] bcast_S65536_S65536x1024_0 (takeMask idx))
    (Host.gather gather_S16384x1024_S65536x1_S65536x1024_1_0_n_n_0_1_11024 tbl (takeCol idx))
    (broadcastInDim S65536x1024 ![] bcast_S_S65536x1024 (constant S_ .f32 0x7FC00000#32))

theorem ofFin_eq_ix1 {a : Nat} (p : Fin a) : (Shape.Idx.ofFin p : (⟨1, ![a]⟩ : Shape).Idx) = ix1 p :=
  funext fun d => by match d with | ⟨0, _⟩ => rfl

theorem andi_apply {s : Shape} {w : Nat} (x y : IVec s w) (i : s.Idx) : andi x y i = IntOp.andi (x i) (y i) := rfl
theorem cmpi_apply {s : Shape} {w : Nat} (p : CmpIPredicate) (x y : IVec s w) (i : s.Idx) :
    cmpi p x y i = IntOp.cmpi p (x i) (y i) := rfl

theorem takeCol_apply (idx : IVec S65536 32) (n : Fin 65536) : takeCol idx (ixP n) = norm (idx (ix1 n)) := by
  unfold takeCol
  rw [bcast_col1, select_apply, ofFin_eq_ix1]
  rfl

/-- A fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a List.mem_cons_self, show IntOp.andi 1#1 1#1 = 1#1 from by decide]
    exact foldl_andi_ones f l fun n hn => hl n (List.mem_cons_of_mem _ hn)

/-- When every row number is a valid one, every row passes the test. -/
theorem takeMask_apply (idx : IVec S65536 32) (hin : ∀ n : Fin 65536, InRange (idx (ix1 n))) (i : S65536.Idx) :
    takeMask idx i = 1#1 := by
  unfold takeMask
  rw [Host.reduce_eq_foldl]
  refine foldl_andi_ones _ _ fun j _ => ?_
  obtain ⟨n, rfl⟩ : ∃ n : Fin 65536, j = ixP n := ⟨j 0, funext fun d => by
    match d with
    | ⟨0, _⟩ => rfl
    | ⟨1, h1⟩ =>
      refine Fin.ext ?_
      have h := (j ⟨1, h1⟩).isLt
      change (j ⟨1, h1⟩).val < 1 at h
      show (j ⟨1, h1⟩).val = 0
      omega⟩
  rw [andi_apply, cmpi_apply, cmpi_apply, takeCol_apply]
  exact norm_tests (hin n)

/-- A row taken by a valid row number is the table's row at the normalised number. -/
theorem takeRows_apply (tbl : FVec Ideal S16384x1024 .f32) (idx : IVec S65536 32)
    (hin : ∀ n : Fin 65536, InRange (idx (ix1 n))) (n : Fin 65536) (l : Fin 1024) :
    takeRows tbl idx (ix2 n l) = tbl (ix2 (rowOf (norm (idx (ix1 n)))) l) := by
  unfold takeRows
  rw [select_apply]
  have hm : broadcastInDim S65536x1024 ![0] bcast_S65536_S65536x1024_0 (takeMask idx) (ix2 n l) = 1#1 := by
    unfold broadcastInDim
    exact takeMask_apply idx hin _
  rw [hm, select_one, gather_row gather_S16384x1024_S65536x1_S65536x1024_1_0_n_n_0_1_11024
    gather_S16384x1024_S65536x1_S65536x1024_1_0_n_n_0_1_11024_wf rfl, takeCol_apply]

/-! ## The flat row numbers -/

/-- End `j`'s flat row numbers, span by span, as the kernel forms them: column `j` of the span table cut out and
    flattened, plus 512 times the batch number. -/
def flatRows (spans : IVec S65536x2 32) (batch : IVec S65536 32) (off : Fin 2 → Nat) (hs : S65536x2.Slices off S65536x1) :
    IVec S65536 32 :=
  addi (shapeCast S65536 (extractStridedSlice S65536x1 off spans hs) shapeCasts_S65536x1_S65536)
    (muli batch (broadcastInDim S65536 ![] bcast_S_S65536 (constantI S_ 32 512#32)))

theorem flatRows_apply (spans : IVec S65536x2 32) (batch : IVec S65536 32) (j : Fin 2) (off : Fin 2 → Nat)
    (hoff : off = ![0, j.val]) (hs : S65536x2.Slices off S65536x1) (n : Fin 65536) :
    flatRows spans batch off hs (ix1 n) = flat (spans (ix2 n j)) (batch (ix1 n)) := by
  subst hoff
  unfold flatRows flat
  show IntOp.addi (shapeCast S65536 (extractStridedSlice S65536x1 ![0, j.val] spans hs) shapeCasts_S65536x1_S65536 (ix1 n))
      (IntOp.muli (batch (ix1 n)) (broadcastInDim S65536 ![] bcast_S_S65536 (constantI S_ 32 512#32) (ix1 n))) = _
  rw [bcast_scalar _ (by decide)]
  rw [shapeCast_apply _ shapeCasts_S65536x1_S65536 (ix1 n) (ix2 n (0 : Fin 1))
    (by rw [Shape.rowMajor_val_two, Shape.rowMajor_val_one]; show n.val * 1 + 0 = n.val; omega)]
  rw [extractStridedSlice_apply _ spans hs (ix2 n (0 : Fin 1)) (ix2 n j)
    (fun a => by match a with | ⟨0, _⟩ => (show n.val = 0 + n.val; omega) | ⟨1, _⟩ => (show j.val = j.val + 0; omega))]
  rfl

end Cert.KernelIdeal.Host

end
-- ==== Proof.KernelStages.lean ====
/-
  The host operations before the region, one stretch at a time.

  The 65 operations come in four stretches: forming the two columns of flat row numbers and flattening the token
  table; taking the begin rows; taking the end rows; laying the two side by side and preparing the weights and
  biases. Each stretch is read over an ARBITRARY contents of the buffers it starts from, so what it computes is a
  small term of the buffers it reads, and a buffer it does not write is left as it was. Running two stretches one
  after the other is running their concatenation.
-/
import proofs.«418251_j19301583028867_1_alg».proof.Proof.KernelHost

set_option maxRecDepth 100000

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx Idealize.ShloMosaic.StableHlo.Predicate
open Cert.SpanIndex Cert.Feats

/-- Running a list of operations and then another is running the two lists joined. -/
theorem after_append {τ : Topo} {sig : RefSig} {Val : EltTy → Type} :
    ∀ (l₁ l₂ : List (HloOp τ sig Val)) (V : Valuation τ sig Val), StableHlo.after (l₁ ++ l₂) V = StableHlo.after l₂ (StableHlo.after l₁ V)
  | [], _, _ => rfl
  | _ :: l, l₂, V => after_append l l₂ _

variable (W : Valuation τ sig (Elt Ideal))

/-! ## First stretch: the flattened token table and the two columns of flat row numbers -/

set_option maxHeartbeats 2000000 in
theorem s0_table : @Eq (FVec Ideal S16384x1024 .f32) (StableHlo.after hostOps0 W (Proc.devRef .tc main_v0))
    (shapeCast S16384x1024 (W (Proc.devRef .tc main_arg0)) shapeCasts_S32x512x1024_S16384x1024) := by
  simp only [hostOps0]
  after_results <;> rfl

set_option maxHeartbeats 2000000 in
theorem s0_begin : @Eq (IVec S65536 32) (StableHlo.after hostOps0 W (Proc.devRef .tc main_v5))
    (flatRows (W (Proc.devRef .tc main_arg1)) (W (Proc.devRef .tc main_arg2)) ![0, 0] slices_S65536x2_S65536x1_0_0) := by
  simp only [hostOps0]
  after_results
  unfold flatRows
  rfl

set_option maxHeartbeats 2000000 in
theorem s0_end : @Eq (IVec S65536 32) (StableHlo.after hostOps0 W (Proc.devRef .tc main_v10))
    (flatRows (W (Proc.devRef .tc main_arg1)) (W (Proc.devRef .tc main_arg2)) ![0, 1] slices_S65536x2_S65536x1_0_1) := by
  simp only [hostOps0]
  after_results
  unfold flatRows
  rfl

/-! ## Second stretch: the begin rows; the table and the end column are left alone -/

set_option maxHeartbeats 2000000 in
theorem s1_rows : @Eq (FVec Ideal S65536x1024 .f32) (StableHlo.after hostOps0_1 W (Proc.devRef .tc main_v11))
    (takeRows (W (Proc.devRef .tc main_v0)) (W (Proc.devRef .tc main_v5))) := by
  simp only [hostOps0_1]
  after_results
  unfold takeRows takeMask takeCol
  rfl

set_option maxHeartbeats 2000000 in
theorem s1_table : StableHlo.after hostOps0_1 W (Proc.devRef .tc main_v0) = W (Proc.devRef .tc main_v0) := by
  simp only [hostOps0_1]
  after_results <;> rfl

set_option maxHeartbeats 2000000 in
theorem s1_end : StableHlo.after hostOps0_1 W (Proc.devRef .tc main_v10) = W (Proc.devRef .tc main_v10) := by
  simp only [hostOps0_1]
  after_results <;> rfl

/-! ## Third stretch: the end rows; the begin rows are left alone -/

set_option maxHeartbeats 2000000 in
theorem s2_rows : @Eq (FVec Ideal S65536x1024 .f32) (StableHlo.after hostOps0_2 W (Proc.devRef .tc main_v12))
    (takeRows (W (Proc.devRef .tc main_v0)) (W (Proc.devRef .tc main_v10))) := by
  simp only [hostOps0_2]
  after_results
  unfold takeRows takeMask takeCol
  rfl

set_option maxHeartbeats 2000000 in
theorem s2_begin : StableHlo.after hostOps0_2 W (Proc.devRef .tc main_v11) = W (Proc.devRef .tc main_v11) := by
  simp only [hostOps0_2]
  after_results <;> rfl

/-! ## Fourth stretch: the two halves side by side, narrowed -/

set_option maxHeartbeats 2000000 in
theorem s3_feats : @Eq (FVec Ideal S65536x2048 .bf16) (StableHlo.after hostOps0_3 W (Proc.devRef .tc main_v14))
    (truncf .bf16
      (concatenate S65536x2048 1
        [⟨S65536x1024, (W (Proc.devRef .tc main_v11) : FVec Ideal S65536x1024 .f32)⟩,
         ⟨S65536x1024, (W (Proc.devRef .tc main_v12) : FVec Ideal S65536x1024 .f32)⟩]
        concatenates_S65536x1024_S65536x1024_S65536x2048_d1)
      bitsLt_bf16_f32) := by
  simp only [hostOps0_3]
  after_results <;> rfl

end Cert.KernelIdeal.Host

end
-- ==== Proof.KernelArrays.lean ====
/-
  The arrays the kernel's region finds, as the host operations before the region compute them from the inputs: the
  feature table (both ends' rows taken, laid side by side, narrowed to bf16), the two weight matrices narrowed to
  bf16, and the two biases as one-row arrays. The feature table is read stretch by stretch; the other four depend on
  one operation each.
-/
import proofs.«418251_j19301583028867_1_alg».proof.Proof.KernelStages

set_option maxRecDepth 100000

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx Idealize.ShloMosaic.StableHlo.Predicate
open Cert.SpanIndex Cert.Feats

variable (m : (ℓ : Loc nD τ sig) → Buf (Elt Ideal) ℓ)

/-- The inputs as plain tables. -/
abbrev xsIn (c : Dev nD) : FVec Ideal S32x512x1024 .f32 := m ((c : Thread nD τ).loc main_arg0)
abbrev spansIn (c : Dev nD) : IVec S65536x2 32 := m ((c : Thread nD τ).loc main_arg1)
abbrev batchIn (c : Dev nD) : IVec S65536 32 := m ((c : Thread nD τ).loc main_arg2)
abbrev w1In (c : Dev nD) : FVec Ideal S2048x150 .f32 := m ((c : Thread nD τ).loc main_arg3)
abbrev b1In (c : Dev nD) : FVec Ideal S150 .f32 := m ((c : Thread nD τ).loc main_arg4)
abbrev w2In (c : Dev nD) : FVec Ideal S150x17 .f32 := m ((c : Thread nD τ).loc main_arg5)
abbrev b2In (c : Dev nD) : FVec Ideal S17 .f32 := m ((c : Thread nD τ).loc main_arg6)

/-- The four stretches in order. -/
theorem stretches : List.flatten [hostOps0 (F := Ideal), hostOps0_1, hostOps0_2, hostOps0_3]
    = hostOps0 ++ (hostOps0_1 ++ (hostOps0_2 ++ hostOps0_3)) := by
  simp only [List.flatten_cons, List.flatten_nil, List.append_nil]

/-- The feature table the region finds, as the host operations compute it. -/
theorem feat_term (c : Dev nD) : @Eq (FVec Ideal S65536x2048 .bf16) (V m c main_v14)
    (truncf .bf16
        (concatenate S65536x2048 1
          [⟨S65536x1024, takeRows (shapeCast S16384x1024 (xsIn m c) shapeCasts_S32x512x1024_S16384x1024)
              (flatRows (spansIn m c) (batchIn m c) ![0, 0] slices_S65536x2_S65536x1_0_0)⟩,
           ⟨S65536x1024, takeRows (shapeCast S16384x1024 (xsIn m c) shapeCasts_S32x512x1024_S16384x1024)
              (flatRows (spansIn m c) (batchIn m c) ![0, 1] slices_S65536x2_S65536x1_0_1)⟩]
          concatenates_S65536x1024_S65536x1024_S65536x2048_d1)
        bitsLt_bf16_f32) := by
  show StableHlo.after (List.flatten [hostOps0, hostOps0_1, hostOps0_2, hostOps0_3]) (fun b => m (c, b)) (Proc.devRef .tc main_v14) = _
  rw [stretches, after_append, after_append, after_append, s3_feats, s2_begin, s2_rows, s1_rows, s1_table, s1_end,
    s0_table, s0_begin, s0_end]

set_option maxHeartbeats 2000000 in
theorem w1_term (c : Dev nD) : @Eq (FVec Ideal S2048x150 .bf16) (V m c main_v15) (truncf .bf16 (w1In m c) bitsLt_bf16_f32) := by
  dsimp only [V]
  simp only [hostOps0, hostOps0_1, hostOps0_2, hostOps0_3, List.flatten_cons, List.flatten_nil, List.append_nil,
    List.cons_append, List.nil_append]
  after_results <;> rfl

set_option maxHeartbeats 2000000 in
theorem w2_term (c : Dev nD) : @Eq (FVec Ideal S150x17 .bf16) (V m c main_v16) (truncf .bf16 (w2In m c) bitsLt_bf16_f32) := by
  dsimp only [V]
  simp only [hostOps0, hostOps0_1, hostOps0_2, hostOps0_3, List.flatten_cons, List.flatten_nil, List.append_nil,
    List.cons_append, List.nil_append]
  after_results <;> rfl

set_option maxHeartbeats 2000000 in
theorem b1_term (c : Dev nD) : @Eq (FVec Ideal S1x150 .f32) (V m c main_v17) (shapeCast S1x150 (b1In m c) shapeCasts_S150_S1x150) := by
  dsimp only [V]
  simp only [hostOps0, hostOps0_1, hostOps0_2, hostOps0_3, List.flatten_cons, List.flatten_nil, List.append_nil,
    List.cons_append, List.nil_append]
  after_results <;> rfl

set_option maxHeartbeats 2000000 in
theorem b2_term (c : Dev nD) : @Eq (FVec Ideal S1x17 .f32) (V m c main_v18) (shapeCast S1x17 (b2In m c) shapeCasts_S17_S1x17) := by
  dsimp only [V]
  simp only [hostOps0, hostOps0_1, hostOps0_2, hostOps0_3, List.flatten_cons, List.flatten_nil, List.append_nil,
    List.cons_append, List.nil_append]
  after_results <;> rfl

end Cert.KernelIdeal.Host

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.Mlp.lean ====
/-
  The span scorer as one function of a table of span features.

  A span's feature row `f` (2048 numbers: the begin token's 1024 features, then the end token's) is scored by a
  two-layer perceptron: hidden unit `h` is `max (∑ k, f k * W1 k h + b1 h) 0`, and label `l` gets
  `∑ h, hidden h * W2 h l + b2 l`. Everything is on the extended reals, where a sum over a finite index type does
  not depend on the order or grouping of its terms, so the function below is what both a blocked and a whole matrix
  product compute. The zero of the rectifier is kept as the word both programs print for it.
-/
import Idealize.ShloMosaic.PureOps.Ideal
import Idealize.ShloMosaic.Lib.ValueIdx

noncomputable section

namespace Cert.Mlp

open Idealize.ShloMosaic Idealize.ShloMosaic.ValueIdx

/-- The rectifier's zero, as the f32 word for 0.0. -/
abbrev zeroWord : EReal := Ideal.ofBits .f32 0x00000000#32

/-- Hidden unit `h` of a feature row: the rectified affine form. -/
def hidden (f : Fin 2048 → EReal) (W1 : Fin 2048 → Fin 150 → EReal) (b1 : Fin 150 → EReal) (h : Fin 150) : EReal :=
  max ((∑ k : Fin 2048, f k * W1 k h) + b1 h) zeroWord

/-- Label `l`'s score of a feature row. -/
def score (f : Fin 2048 → EReal) (W1 : Fin 2048 → Fin 150 → EReal) (b1 : Fin 150 → EReal)
    (W2 : Fin 150 → Fin 17 → EReal) (b2 : Fin 17 → EReal) (l : Fin 17) : EReal :=
  (∑ h : Fin 150, hidden f W1 b1 h * W2 h l) + b2 l

/-- The whole table of scores, span by span and label by label, from the table of feature rows. -/
def scores (feats : Fin 65536 → Fin 2048 → EReal) (W1 : Fin 2048 → Fin 150 → EReal) (b1 : Fin 150 → EReal)
    (W2 : Fin 150 → Fin 17 → EReal) (b2 : Fin 17 → EReal) : (⟨2, ![65536, 17]⟩ : Shape).Idx → EReal :=
  fun i => score (feats (i 0)) W1 b1 W2 b2 (i 1)

theorem scores_apply (feats : Fin 65536 → Fin 2048 → EReal) (W1 : Fin 2048 → Fin 150 → EReal) (b1 : Fin 150 → EReal)
    (W2 : Fin 150 → Fin 17 → EReal) (b2 : Fin 17 → EReal) (n : Fin 65536) (l : Fin 17) :
    scores feats W1 b1 W2 b2 (ix2 n l) = score (feats n) W1 b1 W2 b2 l := rfl

end Cert.Mlp

end
-- ==== Proof.KernelPayload.lean ====
/-
  What the kernel body stores, entry by entry.

  At one grid point the body holds 2048 feature rows `x0`, the two weight matrices `x1`, `x3` and the two biases as
  one-row arrays `x2`, `x4`. It multiplies the rows by the first matrix into a zero accumulator, adds the first bias
  down the rows, rectifies against zero, multiplies by the second matrix into a zero accumulator and adds the second
  bias. On the extended reals a change of float format is the identity and a matrix product into a zero accumulator
  is the sum over the shared axis, so entry `(p, q)` of the stored block is `Mlp.score` of feature row `p` at
  label `q`.
-/
import proofs.«418251_j19301583028867_1_alg».proof.Proof.Gen.KernelIdeal.Skeleton
import proofs.«418251_j19301583028867_1_alg».proof.Proof.LibMatProd
import proofs.«418251_j19301583028867_1_alg».proof.Proof.Mlp
import Idealize.ShloMosaic.Lib.Pipeline.Value
import Idealize.ShloMosaic.Lib.ValueLayout

noncomputable section

namespace Cert.KernelIdeal.Payload

open Cert.KernelIdeal Cert.KernelIdeal.Gen
open Idealize.ShloMosaic Idealize.ShloMosaic.ValueIdx

theorem pay_apply (x0 : Vec Ideal S2048x2048 .bf16) (x1 : Vec Ideal S2048x150 .bf16) (x2 : Vec Ideal S1x150 .f32)
    (x3 : Vec Ideal S150x17 .bf16) (x4 : Vec Ideal S1x17 .f32) (p : Fin 2048) (q : Fin 17) :
    k0_pay1 (F := Ideal) x0 x1 x2 x3 x4 (ix2 p q)
      = Cert.Mlp.score (fun k => x0 (ix2 p k)) (fun k h => x1 (ix2 k h)) (fun h => x2 (ix2 (0 : Fin 1) h))
          (fun h l => x3 (ix2 h l)) (fun l => x4 (ix2 (0 : Fin 1) l)) q := by
  unfold k0_pay1
  simp only [shapeCast_self]
  rw [addf_apply, Cert.LibMatProd.matmul_zero_apply dot_S2048x150_S150x17_S2048x17_1_0_0_1_n_n rfl, broadcastTo_1b_ab_apply]
  unfold Cert.Mlp.score
  refine congrArg₂ (· + ·) (Finset.sum_congr rfl fun h _ => ?_) rfl
  rw [truncf_apply, maximumf_apply, addf_apply,
    Cert.LibMatProd.matmul_zero_apply dot_S2048x2048_S2048x150_S2048x150_1_0_0_1_n_n rfl, broadcastTo_1b_ab_apply,
    broadcast_apply]
  rfl

end Cert.KernelIdeal.Payload

end
-- ==== Proof.KernelBlocks.lean ====
/-
  From the blocks the grid points write to the whole score table.

  The grid has 32 points. Point `t` reads rows `2048 t … 2048 t + 2047` of the feature table and the whole of the two
  weight matrices and the two one-row biases, and writes rows `2048 t … 2048 t + 2047` of the score table. What it
  writes at local row `p`, label `q` is `Mlp.score` of feature row `2048 t + p` (the body's stored value, entry by
  entry), which is entry `(2048 t + p, q)` of `Mlp.scores` of the arrays as the region finds them. The 32 blocks of
  2048 rows cover the 65536 rows, so the score table ends holding `Mlp.scores` of those arrays.
-/
import proofs.«418251_j19301583028867_1_alg».proof.Proof.Gen.KernelIdeal.Value
import proofs.«418251_j19301583028867_1_alg».proof.Proof.KernelPayload
import proofs.«418251_j19301583028867_1_alg».proof.Proof.Mlp

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The arrays the region finds, as plain tables on the extended reals: the feature table, the two weight matrices
    and the two biases (each a one-row array). -/
abbrev featArr (c : Dev nD) : S65536x2048.Idx → EReal := V m c main_v14
abbrev w1Arr (c : Dev nD) : S2048x150.Idx → EReal := V m c main_v15
abbrev b1Arr (c : Dev nD) : S1x150.Idx → EReal := V m c main_v17
abbrev w2Arr (c : Dev nD) : S150x17.Idx → EReal := V m c main_v16
abbrev b2Arr (c : Dev nD) : S1x17.Idx → EReal := V m c main_v18

/-- The scores of the arrays the region finds. -/
def regionScores (c : Dev nD) : S65536x17.Idx → EReal :=
  Cert.Mlp.scores (fun n k => featArr m c (ix2 n k)) (fun k h => w1Arr m c (ix2 k h)) (fun h => b1Arr m c (ix2 (0 : Fin 1) h))
    (fun h l => w2Arr m c (ix2 h l)) (fun l => b2Arr m c (ix2 (0 : Fin 1) l))

/-- The index maps, decided over the 32 points: the feature and score windows are at block row `t`, every other
    window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 32 := lt_of_lt_of_eq t.isLt N_0

/-- Row `p` of point `t`'s block is row `2048 t + p` of the table. -/
abbrev rowAt (t : Fin cfg0.N) (p : Fin 2048) : Fin 65536 := ⟨t.val * 2048 + p.val, by have := point_lt t; have := p.isLt; omega⟩

theorem feat_block (c : Dev nD) (t : Fin cfg0.N) (p : Fin 2048) (k : Fin 2048) :
    iblk m c 0 t (ix2 p k) = featArr m c (ix2 (rowAt t p) k) := by
  obtain ⟨e0, e1, -⟩ := idx_facts t
  show V m c main_v14 (((cfg0.win 0).blk t).view.emb (ix2 p k)) = V m c main_v14 (ix2 (rowAt t p) k)
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 2048 + 1 * k.val = k.val; omega

theorem w1_block (c : Dev nD) (t : Fin cfg0.N) (k : Fin 2048) (h : Fin 150) :
    iblk m c 1 t (ix2 k h) = w1Arr m c (ix2 k h) := by
  obtain ⟨-, -, e0, e1, -⟩ := idx_facts t
  show V m c main_v15 (((cfg0.win 1).blk t).view.emb (ix2 k h)) = V m c main_v15 (ix2 k h)
  refine congrArg _ (funext fun a => Fin.ext ?_)
  match a with
  | ⟨0, _⟩ => show win0_1.index t (0 : Fin 2) * 2048 + 1 * k.val = k.val; omega
  | ⟨1, _⟩ => show win0_1.index t (1 : Fin 2) * 150 + 1 * h.val = h.val; omega

theorem b1_block (c : Dev nD) (t : Fin cfg0.N) (h : Fin 150) :
    iblk m c 2 t (ix2 (0 : Fin 1) h) = b1Arr m c (ix2 (0 : Fin 1) h) := by
  obtain ⟨-, -, -, -, e0, e1, -⟩ := idx_facts t
  show V m c main_v17 (((cfg0.win 2).blk t).view.emb (ix2 (0 : Fin 1) h)) = V m c main_v17 (ix2 (0 : Fin 1) h)
  refine congrArg _ (funext fun a => Fin.ext ?_)
  match a with
  | ⟨0, _⟩ => show win0_2.index t (0 : Fin 2) * 1 + 1 * 0 = 0; omega
  | ⟨1, _⟩ => show win0_2.index t (1 : Fin 2) * 150 + 1 * h.val = h.val; omega

theorem w2_block (c : Dev nD) (t : Fin cfg0.N) (h : Fin 150) (l : Fin 17) :
    iblk m c 3 t (ix2 h l) = w2Arr m c (ix2 h l) := by
  obtain ⟨-, -, -, -, -, -, e0, e1, -⟩ := idx_facts t
  show V m c main_v16 (((cfg0.win 3).blk t).view.emb (ix2 h l)) = V m c main_v16 (ix2 h l)
  refine congrArg _ (funext fun a => Fin.ext ?_)
  match a with
  | ⟨0, _⟩ => show win0_3.index t (0 : Fin 2) * 150 + 1 * h.val = h.val; omega
  | ⟨1, _⟩ => show win0_3.index t (1 : Fin 2) * 17 + 1 * l.val = l.val; omega

theorem b2_block (c : Dev nD) (t : Fin cfg0.N) (l : Fin 17) :
    iblk m c 4 t (ix2 (0 : Fin 1) l) = b2Arr m c (ix2 (0 : Fin 1) l) := by
  obtain ⟨-, -, -, -, -, -, -, -, e0, e1, -⟩ := idx_facts t
  show V m c main_v18 (((cfg0.win 4).blk t).view.emb (ix2 (0 : Fin 1) l)) = V m c main_v18 (ix2 (0 : Fin 1) l)
  refine congrArg _ (funext fun a => Fin.ext ?_)
  match a with
  | ⟨0, _⟩ => show win0_4.index t (0 : Fin 2) * 1 + 1 * 0 = 0; omega
  | ⟨1, _⟩ => show win0_4.index t (1 : Fin 2) * 17 + 1 * l.val = l.val; omega

/-- What point `t` writes back is block `t` of the scores of the region's arrays. -/
theorem flushed_eq (c : Dev nD) (t : Fin cfg0.N) :
    (dats m 0 c).flushed 5 t = ((cfg0.win 5).blk t).view.read (Elt Ideal) (regionScores m c) := by
  rw [Cert.KernelIdeal.Value.flushed5]
  unfold out0_5
  rw [View.canon_unit_zero hz]
  simp only [View.ld_unit_zero (S := S2048x2048) hz, View.ld_unit_zero (S := S2048x150) hz, View.ld_unit_zero (S := S1x150) hz,
    View.ld_unit_zero (S := S150x17) hz, View.ld_unit_zero (S := S1x17) hz]
  obtain ⟨-, -, -, -, -, -, -, -, -, -, e0, e1⟩ := idx_facts t
  funext j
  obtain ⟨p, q, rfl⟩ : ∃ (p : Fin 2048) (q : Fin 17), j = ix2 p q := ⟨j 0, j 1, eq_ix2 j⟩
  show k0_pay1 (F := Ideal) (iblk m c 0 t) (iblk m c 1 t) (iblk m c 2 t) (iblk m c 3 t) (iblk m c 4 t) (ix2 p q)
    = regionScores m c (((cfg0.win 5).blk t).view.emb (ix2 p q))
  have hemb : ((cfg0.win 5).blk t).view.emb (ix2 p q) = ix2 (rowAt t p) q := by
    funext a; apply Fin.ext
    match a with
    | ⟨0, _⟩ => show win0_5.index t (0 : Fin 2) * 2048 + 1 * p.val = t.val * 2048 + p.val; omega
    | ⟨1, _⟩ => show win0_5.index t (1 : Fin 2) * 17 + 1 * q.val = q.val; omega
  rw [hemb]
  unfold regionScores
  rw [Cert.Mlp.scores_apply]
  refine (Cert.KernelIdeal.Payload.pay_apply (iblk m c 0 t) (iblk m c 1 t) (iblk m c 2 t) (iblk m c 3 t) (iblk m c 4 t) p q).trans ?_
  have h0 : (fun k : Fin 2048 => iblk m c 0 t (ix2 p k)) = fun k => featArr m c (ix2 (rowAt t p) k) := funext fun k => feat_block m c t p k
  have h1 : (fun (k : Fin 2048) (h : Fin 150) => iblk m c 1 t (ix2 k h)) = fun k h => w1Arr m c (ix2 k h) :=
    funext fun k => funext fun h => w1_block m c t k h
  have h2 : (fun h : Fin 150 => iblk m c 2 t (ix2 (0 : Fin 1) h)) = fun h => b1Arr m c (ix2 (0 : Fin 1) h) := funext fun h => b1_block m c t h
  have h3 : (fun (h : Fin 150) (l : Fin 17) => iblk m c 3 t (ix2 h l)) = fun h l => w2Arr m c (ix2 h l) :=
    funext fun h => funext fun l => w2_block m c t h l
  have h4 : (fun l : Fin 17 => iblk m c 4 t (ix2 (0 : Fin 1) l)) = fun l => b2Arr m c (ix2 (0 : Fin 1) l) := funext fun l => b2_block m c t l
  rw [h0, h1, h2, h3, h4]

/-- An index of the score table is in point `t`'s block iff each coordinate is in the block's range on its axis. -/
theorem mem_blk (t : Fin cfg0.N) (i : S65536x17.Idx) :
    i ∈ ((cfg0.win 5).blk t).view.set ↔ ∀ a : Fin 2, win0_5.index t a * S2048x17.size a ≤ (i a).val ∧ (i a).val < win0_5.index t a * S2048x17.size a + S2048x17.size a := by
  show i ∈ ((View.whole main_v19).slice (win0_5.rect t)).set ↔ _
  rw [View.set_slice_whole, Rect.mem_set_unit]
  exact Iff.rfl

/-- Every row of the score table is in the block of the point `row / 2048`. -/
theorem cover (i : S65536x17.Idx) : ∃ t : Fin cfg0.N, (cfg0.win 5).flush t = true ∧ i ∈ ((cfg0.win 5).blk t).view.set := by
  have hi0 : (i 0).val < 65536 := (i 0).isLt
  have hi1 : (i 1).val < 17 := (i 1).isLt
  let t : Fin cfg0.N := ⟨(i 0).val / 2048, by rw [show cfg0.N = 32 from N_0]; omega⟩
  obtain ⟨-, -, -, -, -, -, -, -, -, -, e0, e1⟩ := idx_facts t
  have ht : t.val = (i 0).val / 2048 := rfl
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 17 ≤ (i 1).val ∧ (i 1).val < win0_5.index t (1 : Fin 2) * 17 + 17; omega

/-- The score table after the run. -/
theorem final (c : Dev nD) : (dats m 0 c).arrAt 5 cfg0.N = regionScores m c :=
  (dats m 0 c).arrAt_eq_of_cover 5 (regionScores m c) (fun t _ => flushed_eq m c t) cover

end Cert.KernelIdeal.Blocks

end
-- ==== Proof.KernelValue.lean ====
/-
  The kernel's score table as a function of the inputs.

  The region's arrays are read entry by entry: feature `k` of span `n` falls in the begin half (`k < 1024`) or the
  end half of the side-by-side table, and under the precondition's range fact the row taken there is the token
  table's row at the normalised flat row number — `Feats.feats`. The narrowed weight matrices are the inputs, and a
  bias as a one-row array reads the input vector. With the blocks assembled, the score table after the run is
  `Mlp.scores` of the inputs.
-/
import proofs.«418251_j19301583028867_1_alg».proof.Proof.KernelArrays
import proofs.«418251_j19301583028867_1_alg».proof.Proof.KernelBlocks

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo.Predicate
open Cert.SpanIndex Cert.Feats Cert.KernelIdeal.Host

variable (m : (ℓ : Loc nD τ sig) → Buf (Elt Ideal) ℓ)

/-- Every span end's flat row number is a valid one. -/
def RowsInRange (c : Dev nD) : Prop :=
  ∀ (n : Fin 65536) (j : Fin 2), InRange (flat (spansIn m c (ix2 n j)) (batchIn m c (ix1 n)))

/-- The feature table the region finds is the feature table of the inputs. -/
theorem feat_read (c : Dev nD) (hin : RowsInRange m c) (n : Fin 65536) (k : Fin 2048) :
    (V m c main_v14 : S65536x2048.Idx → EReal) (ix2 n k) = feats (xsIn m c) (spansIn m c) (batchIn m c) n k := by
  have hk2 := k.isLt
  have hin0 : ∀ n : Fin 65536, InRange (flatRows (spansIn m c) (batchIn m c) ![0, 0] slices_S65536x2_S65536x1_0_0 (ix1 n)) :=
    fun n => by rw [flatRows_apply _ _ (0 : Fin 2) ![0, 0] rfl]; exact hin n 0
  have hin1 : ∀ n : Fin 65536, InRange (flatRows (spansIn m c) (batchIn m c) ![0, 1] slices_S65536x2_S65536x1_0_1 (ix1 n)) :=
    fun n => by rw [flatRows_apply _ _ (1 : Fin 2) ![0, 1] rfl]; exact hin n 1
  rw [feat_term, truncf_apply]
  unfold feats
  by_cases hk : k.val < 1024
  · rw [concatenate_pair_apply_left (s₁ := S65536x1024) (s₂ := S65536x1024) (1 : Fin 2) _ _ concatenates_S65536x1024_S65536x1024_S65536x2048_d1 (ix2 n k) rfl
      (ix2 n (⟨k.val, hk⟩ : Fin 1024)) (fun b => by match b with | ⟨0, _⟩ => rfl | ⟨1, _⟩ => rfl)]
    rw [takeRows_apply _ _ hin0, reshape_token, flatRows_apply _ _ (0 : Fin 2) ![0, 0] rfl]
    have e1 : endOf k = 0 := Fin.ext (by show k.val / 1024 = 0; omega)
    have e2 : colOf k = ⟨k.val, hk⟩ := Fin.ext (by show k.val % 1024 = k.val; omega)
    rw [e1, e2]
  · rw [concatenate_pair_apply_right (s₁ := S65536x1024) (s₂ := S65536x1024) (1 : Fin 2) _ _ concatenates_S65536x1024_S65536x1024_S65536x2048_d1 (ix2 n k) rfl rfl
      (ix2 n (⟨k.val - 1024, by omega⟩ : Fin 1024))
      (fun b hb => by match b with | ⟨0, _⟩ => rfl | ⟨1, _⟩ => exact absurd rfl hb)
      (by show k.val - 1024 + 1024 = k.val; omega)]
    rw [takeRows_apply _ _ hin1, reshape_token, flatRows_apply _ _ (1 : Fin 2) ![0, 1] rfl]
    have e1 : endOf k = 1 := Fin.ext (by show k.val / 1024 = 1; omega)
    have e2 : colOf k = ⟨k.val - 1024, by omega⟩ := Fin.ext (by show k.val % 1024 = k.val - 1024; omega)
    rw [e1, e2]

theorem w1_read (c : Dev nD) (k : Fin 2048) (h : Fin 150) :
    (V m c main_v15 : S2048x150.Idx → EReal) (ix2 k h) = w1In m c (ix2 k h) := by
  rw [w1_term, truncf_apply]

theorem w2_read (c : Dev nD) (h : Fin 150) (l : Fin 17) :
    (V m c main_v16 : S150x17.Idx → EReal) (ix2 h l) = w2In m c (ix2 h l) := by
  rw [w2_term, truncf_apply]

theorem b1_read (c : Dev nD) (h : Fin 150) :
    (V m c main_v17 : S1x150.Idx → EReal) (ix2 (0 : Fin 1) h) = b1In m c (ix1 h) := by
  rw [b1_term, shapeCast_a_1a_apply]

theorem b2_read (c : Dev nD) (l : Fin 17) :
    (V m c main_v18 : S1x17.Idx → EReal) (ix2 (0 : Fin 1) l) = b2In m c (ix1 l) := by
  rw [b2_term, shapeCast_a_1a_apply]

/-- The score table after the run, as a function of the inputs. -/
def result (c : Dev nD) : S65536x17.Idx → EReal :=
  Cert.Mlp.scores (feats (xsIn m c) (spansIn m c) (batchIn m c)) (fun k h => w1In m c (ix2 k h)) (fun h => b1In m c (ix1 h))
    (fun h l => w2In m c (ix2 h l)) (fun l => b2In m c (ix1 l))

theorem final_eq (c : Dev nD) (hin : RowsInRange m c) : (dats m 0 c).arrAt 5 cfg0.N = result m c := by
  rw [Cert.KernelIdeal.Blocks.final]
  unfold Cert.KernelIdeal.Blocks.regionScores result
  have h0 : (fun (n : Fin 65536) (k : Fin 2048) => Cert.KernelIdeal.Blocks.featArr m c (ix2 n k))
      = feats (xsIn m c) (spansIn m c) (batchIn m c) := funext fun n => funext fun k => feat_read m c hin n k
  have h1 : (fun (k : Fin 2048) (h : Fin 150) => Cert.KernelIdeal.Blocks.w1Arr m c (ix2 k h)) = fun k h => w1In m c (ix2 k h) :=
    funext fun k => funext fun h => w1_read m c k h
  have h2 : (fun h : Fin 150 => Cert.KernelIdeal.Blocks.b1Arr m c (ix2 (0 : Fin 1) h)) = fun h => b1In m c (ix1 h) :=
    funext fun h => b1_read m c h
  have h3 : (fun (h : Fin 150) (l : Fin 17) => Cert.KernelIdeal.Blocks.w2Arr m c (ix2 h l)) = fun h l => w2In m c (ix2 h l) :=
    funext fun h => funext fun l => w2_read m c h l
  have h4 : (fun l : Fin 17 => Cert.KernelIdeal.Blocks.b2Arr m c (ix2 (0 : Fin 1) l)) = fun l => b2In m c (ix1 l) :=
    funext fun l => b2_read m c l
  rw [h0, h1, h2, h3, h4]

end Cert.KernelIdeal.KValue

end
-- ==== Proof.RefValue.lean ====
/-
  The reference computes the scores of the feature table.

  Its gather reads, for each of the 131072 span ends in span-major order, one row of the flattened token table; the
  reshape that follows lays a span's two rows side by side, which is the feature table of `Feats.feats`. The two
  `dot_general`s are sums over the contracted axis, the biases are broadcast along the spans, and the rectifier is a
  maximum with the zero word: label by label this is `Mlp.scores`.
-/
import proofs.«418251_j19301583028867_1_alg».proof.Proof.Gen.ReferenceIdeal.Read
import proofs.«418251_j19301583028867_1_alg».proof.Proof.Feats
import proofs.«418251_j19301583028867_1_alg».proof.Proof.Mlp

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo.Predicate
open Cert.SpanIndex Cert.Feats

/-- The row number the reference's gather is given for end `j` of span `n`: entry `2 n + j` of its index column. -/
theorem index_apply (x1 : (⟨S65536x2, .i32⟩ : BufTy).Contents (Elt Ideal)) (x2 : (⟨S65536, .i32⟩ : BufTy).Contents (Elt Ideal))
    (e : Fin 131072) :
    val_main_v12 (F := Ideal) x1 x2 (ixP e)
      = norm (flat (x1 (ix2 ⟨e.val / 2, by have := e.isLt; omega⟩ ⟨e.val % 2, by omega⟩)) (x2 (ix1 ⟨e.val / 2, by have := e.isLt; omega⟩))) := by
  rw [val_main_v12_apply, val_main_v11_apply, val_main_v8_apply, val_main_v10_apply, val_main_v6_apply, val_main_v7_apply,
    val_main_v9_apply, val_main_c_0_apply, val_main_c_1_apply, val_main_v5_apply, val_main_v4_apply, val_main_v3_apply,
    val_main_v1_apply, val_main_v2_apply, val_main_c_apply]
  have i1 : idx_main_v6 (idx_main_v12 (ixP e))
      = ix2 (⟨e.val / 2, by have := e.isLt; omega⟩ : Fin 65536) (⟨e.val % 2, by omega⟩ : Fin 2) :=
    funext fun a => by match a with | ⟨0, _⟩ => rfl | ⟨1, _⟩ => rfl
  have i2 : idx_main_v1 (idx_main_v4 (idx_main_v6 (idx_main_v12 (ixP e))))
      = ix1 (⟨e.val / 2, by have := e.isLt; omega⟩ : Fin 65536) :=
    funext fun a => by match a with | ⟨0, _⟩ => rfl
  rw [i1, i2]
  rfl

/-- The reference's feature table is `Feats.feats`. -/
theorem feats_eq (x0 : (⟨S32x512x1024, .f32⟩ : BufTy).Contents (Elt Ideal)) (x1 : (⟨S65536x2, .i32⟩ : BufTy).Contents (Elt Ideal))
    (x2 : (⟨S65536, .i32⟩ : BufTy).Contents (Elt Ideal)) (n : Fin 65536) (k : Fin 2048) :
    val_main_v14 (F := Ideal) x0 x1 x2 (ix2 n k) = feats x0 x1 x2 n k := by
  have hn := n.isLt
  have hk := k.isLt
  rw [val_main_v14_apply]
  have hi : idx_main_v14 (ix2 n k)
      = ix2 (⟨(n.val * 2048 + k.val) / 1024, by omega⟩ : Fin 131072) (⟨(n.val * 2048 + k.val) % 1024, by omega⟩ : Fin 1024) :=
    funext fun a => by match a with | ⟨0, _⟩ => rfl | ⟨1, _⟩ => rfl
  rw [hi]
  unfold val_main_v13
  rw [gather_row gather_S16384x1024_S131072x1_S131072x1024_1_0_n_n_0_1_11024
    Facts₀.gather_S16384x1024_S131072x1_S131072x1024_1_0_n_n_0_1_11024_wf rfl]
  unfold val_main_v0
  rw [reshape_token, index_apply]
  unfold feats
  have e1 : (⟨(n.val * 2048 + k.val) / 1024 / 2, by omega⟩ : Fin 65536) = n := Fin.ext (by show (n.val * 2048 + k.val) / 1024 / 2 = n.val; omega)
  have e2 : (⟨(n.val * 2048 + k.val) / 1024 % 2, by omega⟩ : Fin 2) = endOf k := Fin.ext (by show (n.val * 2048 + k.val) / 1024 % 2 = k.val / 1024; omega)
  have e3 : (⟨(n.val * 2048 + k.val) % 1024, by omega⟩ : Fin 1024) = colOf k := Fin.ext (by show (n.val * 2048 + k.val) % 1024 = k.val % 1024; omega)
  simp only [e1, e2, e3]

/-- The reference's result is the scores of the feature table. -/
theorem scores_eq (x0 : (⟨S32x512x1024, .f32⟩ : BufTy).Contents (Elt Ideal)) (x1 : (⟨S65536x2, .i32⟩ : BufTy).Contents (Elt Ideal))
    (x2 : (⟨S65536, .i32⟩ : BufTy).Contents (Elt Ideal)) (x3 : (⟨S2048x150, .f32⟩ : BufTy).Contents (Elt Ideal))
    (x4 : (⟨S150, .f32⟩ : BufTy).Contents (Elt Ideal)) (x5 : (⟨S150x17, .f32⟩ : BufTy).Contents (Elt Ideal))
    (x6 : (⟨S17, .f32⟩ : BufTy).Contents (Elt Ideal)) :
    val_main_v23 (F := Ideal) x0 x1 x2 x3 x4 x5 x6
      = Cert.Mlp.scores (feats x0 x1 x2) (fun k h => x3 (ix2 k h)) (fun h => x4 (ix1 h)) (fun h l => x5 (ix2 h l)) (fun l => x6 (ix1 l)) := by
  funext i
  obtain ⟨n, l, rfl⟩ : ∃ (n : Fin 65536) (l : Fin 17), i = ix2 n l := ⟨i 0, i 1, eq_ix2 i⟩
  rw [Cert.Mlp.scores_apply, val_main_v23_apply, val_main_v20_apply, val_main_v22_apply, val_main_v21_apply]
  unfold Cert.Mlp.score
  have eb2 : idx_main_v21 (idx_main_v22 (ix2 n l)) = ix1 l := funext fun a => by match a with | ⟨0, _⟩ => rfl
  rw [eb2]
  refine congrArg₂ (· + ·) (Finset.sum_congr rfl fun h _ => ?_) rfl
  have el : lidx_main_v20 (ix2 n l) h = ix2 n h := funext fun a => by match a with | ⟨0, _⟩ => rfl | ⟨1, _⟩ => rfl
  have er : ridx_main_v20 (ix2 n l) h = ix2 h l := funext fun a => by match a with | ⟨0, _⟩ => rfl | ⟨1, _⟩ => rfl
  rw [el, er, val_main_v19_apply, val_main_v18_apply, val_main_v15_apply, val_main_v17_apply, val_main_v16_apply,
    val_main_call0_v0_apply, val_main_call0_cst_apply]
  unfold Cert.Mlp.hidden
  have eb1 : idx_main_v16 (idx_main_v17 (ix2 n h)) = ix1 h := funext fun a => by match a with | ⟨0, _⟩ => rfl
  rw [eb1]
  refine congrArg₂ (· * ·) (congrArg₂ max (congrArg₂ (· + ·) (Finset.sum_congr rfl fun k _ => ?_) rfl) rfl) rfl
  have el' : lidx_main_v15 (ix2 n h) k = ix2 n k := funext fun a => by match a with | ⟨0, _⟩ => rfl | ⟨1, _⟩ => rfl
  have er' : ridx_main_v15 (ix2 n h) k = ix2 k h := funext fun a => by match a with | ⟨0, _⟩ => rfl | ⟨1, _⟩ => rfl
  rw [el', er', feats_eq]

end Cert.ReferenceIdeal.RefValue

end
-- ==== Proof.PreRange.lean ====
/-
  What the precondition says about the row numbers.

  Besides the finiteness of the float inputs, the precondition states, for every span `n` and each of its two ends
  `j`, that the flat row number `spans n j + 512 * batch n` (in wrapping 32-bit arithmetic, as both programs compute
  it) satisfies `-16384 ≤ · < 16384` as a signed number: it names a row of the 16384-row token table, counting from
  either end. The predicate is an `and`-reduction over all spans and ends of the two comparisons, so its being all
  ones gives the two comparisons at every index.
-/
import proofs.«418251_j19301583028867_1_alg».proof.Proof.Gen.Pre_finite_inputs
import proofs.«418251_j19301583028867_1_alg».proof.Proof.SpanIndex
import Idealize.ShloMosaic.Lib.ReduceAll
import Idealize.ShloMosaic.Lib.StableHlo.Predicate

namespace Cert.PreRange

open Idealize.ShloMosaic Idealize.ShloMosaic.ValueIdx Idealize.ShloMosaic.StableHlo.Predicate
open Cert.SpanIndex Cert.Pre_finite_inputs

theorem ij_eq_ix2 {a b : Nat} (p : Fin a) (q : Fin b) : ij p q = ix2 p q :=
  funext fun d => by match d with | ⟨0, _⟩ => rfl | ⟨1, _⟩ => rfl

theorem ofFin_eq_ix1 {a : Nat} (p : Fin a) : (Shape.Idx.ofFin p : (⟨1, ![a]⟩ : Shape).Idx) = ix1 p :=
  funext fun d => by match d with | ⟨0, _⟩ => rfl

theorem addi_apply {s : Shape} {w : Nat} (x y : IVec s w) (i : s.Idx) : addi x y i = IntOp.addi (x i) (y i) := rfl
theorem muli_apply {s : Shape} {w : Nat} (x y : IVec s w) (i : s.Idx) : muli x y i = IntOp.muli (x i) (y i) := rfl

/-- The predicate's flat row number, read at span `n`, end `j`. -/
theorem flat_apply (a1 : IVec S65536x2 32) (a2 : IVec S65536 32) (h₁ : S65536.BroadcastsInDim S65536x1 ![0])
    (h₂ : S_.BroadcastsInDim S65536x1 ![]) (h₃ : S65536x1.BroadcastsInDim S65536x2 ![0, 1]) (n : Fin 65536) (j : Fin 2) :
    addi a1 (broadcastInDim S65536x2 ![0, 1] h₃
        (muli (broadcastInDim S65536x1 ![0] h₁ a2) (broadcastInDim S65536x1 ![] h₂ (constantI S_ 32 512#32)))) (ij n j)
      = flat (a1 (ix2 n j)) (a2 (ix1 n)) := by
  rw [addi_apply, bcast_of_col, muli_apply, bcast_col1, bcast_scalar h₂ (by decide), ij_eq_ix2, ofFin_eq_ix1]
  rfl

instance : Subsingleton S_.Idx := ⟨fun a b => funext fun d => d.elim0⟩

/-- Under the precondition every span end's flat row number is a valid one. -/
theorem in_range {F : FTy → Type} [FloatOps F] (a0 : FVec F S32x512x1024 .f32) (a1 : IVec S65536x2 32) (a2 : IVec S65536 32)
    (a3 : FVec F S2048x150 .f32) (a4 : FVec F S150 .f32) (a5 : FVec F S150x17 .f32) (a6 : FVec F S17 .f32)
    (h : fn (F := F) a0 a1 a2 a3 a4 a5 a6 = fun _ => 1#1) (n : Fin 65536) (j : Fin 2) :
    InRange (flat (a1 (ix2 n j)) (a2 (ix1 n))) := by
  have h0 := congrFun h ix0
  dsimp only [fn, fn_part1, fn_part2] at h0
  obtain ⟨-, hr⟩ := IntOp.andi_eq_one.1 h0
  have hi := Host.reduce_andi_all _ _ _ _ ix0 hr (ij n j)
  obtain ⟨hge, hlt⟩ := IntOp.andi_eq_one.1 hi
  constructor
  · have hge' : IntOp.cmpi .sge _ _ = 1#1 := hge
    rw [flat_apply, bcast_scalar _ (by decide)] at hge'
    exact hge'
  · have hlt' : IntOp.cmpi .slt _ _ = 1#1 := hlt
    rw [flat_apply, bcast_scalar _ (by decide)] at hlt'
    exact hlt'

end Cert.PreRange
-- ==== Proof.lean ====
/-
  The span scorer: a kernel that takes each span's begin and end token rows with `jnp.take`, lays them side by
  side and scores them with a two-layer perceptron on 32 blocks of 2048 spans, against a reference that indexes the
  flattened token table directly and scores all spans with two whole matrix products.

  On the extended reals the two perceptrons are one function of the feature table (`Mlp.scores`): a change of float
  format is the identity, a matrix product into a zero accumulator is the sum over the shared axis, and the blocks
  of spans tile the table. The feature tables differ only where a flat row number `spans n j + 512 * batch n` is
  not a row of the 16384-row table counting from either end: there the reference's gather clamps, while `jnp.take`
  fills the row. The precondition states that every flat row number satisfies `-16384 ≤ · < 16384`; under it every
  row the kernel takes passes its range test, and both feature tables are `Feats.feats` of the inputs.

  The frames of the two kernel programs are the generated ones; the reference's frame is its generated run with the
  result dropped; the ideal pass rewrote nothing, so the idealization claim is trivial.
-/
import proofs.«418251_j19301583028867_1_alg».proof.Defs
import proofs.«418251_j19301583028867_1_alg».proof.Proof.Gen.Kernel
import proofs.«418251_j19301583028867_1_alg».proof.Proof.Gen.Kernel.Skeleton
import proofs.«418251_j19301583028867_1_alg».proof.Proof.Gen.Kernel.Launch
import proofs.«418251_j19301583028867_1_alg».proof.Proof.Gen.Kernel.Points
import proofs.«418251_j19301583028867_1_alg».proof.Proof.Gen.Kernel.Frame
import proofs.«418251_j19301583028867_1_alg».proof.Proof.Gen.KernelIdeal
import proofs.«418251_j19301583028867_1_alg».proof.Proof.Gen.KernelIdeal.Skeleton
import proofs.«418251_j19301583028867_1_alg».proof.Proof.Gen.KernelIdeal.Launch
import proofs.«418251_j19301583028867_1_alg».proof.Proof.Gen.KernelIdeal.Points
import proofs.«418251_j19301583028867_1_alg».proof.Proof.Gen.KernelIdeal.Frame
import proofs.«418251_j19301583028867_1_alg».proof.Proof.Gen.ReferenceIdeal
import proofs.«418251_j19301583028867_1_alg».proof.Proof.Gen.Pre_finite_inputs
import proofs.«418251_j19301583028867_1_alg».proof.Proof.Gen.KernelIdeal.Value
import proofs.«418251_j19301583028867_1_alg».proof.Proof.Gen.ReferenceIdeal.Run
import proofs.«418251_j19301583028867_1_alg».proof.Proof.Gen.ReferenceIdeal.Read
import proofs.«418251_j19301583028867_1_alg».proof.Proof.KernelValue
import proofs.«418251_j19301583028867_1_alg».proof.Proof.RefValue
import proofs.«418251_j19301583028867_1_alg».proof.Proof.PreRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The precondition's range fact, at the kernel's input arrays. -/
theorem rows_in_range (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.KValue.RowsInRange m c :=
  fun n j => Cert.PreRange.in_range _ _ _ _ _ _ _ (hpre c) n j

/-- Both programs end with the scores of the inputs' feature table. -/
theorem algebraic : Cert.algebraic_KernelIdeal_ReferenceIdeal := by
  intro m ρ m' ρ' hpre hagree
  refine ⟨fun c => Cert.KernelIdeal.KValue.result m c, ?_, ?_⟩
  · exact (θ_run Cert.KernelIdeal.defs _ _).mono
      (fun r h c => ⟨(h c).1.trans (Cert.KernelIdeal.KValue.final_eq m c (rows_in_range m hpre c)), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v23_eq (F := Ideal) _ _ _ _ _ _ _).trans ?_
    obtain ⟨a0, a1, a2, a3, a4, a5, a6⟩ := hagree c
    rw [Cert.ReferenceIdeal.RefValue.scores_eq, a0, a1, a2, a3, a4, a5, a6]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
